-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S5000x128 : Shape := ⟨2, ![5000, 128]⟩
abbrev S800000x128 : Shape := ⟨2, ![800000, 128]⟩
abbrev S50000x1 : Shape := ⟨2, ![50000, 1]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩

abbrev nBuf : Space → Nat
  | .hbm => 64
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v27_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.HostStretches.lean ====
/-
  The host operations of the kernel's program around its four calls, named.

  The edge array holds a row of source words and a row of target words. A source word below zero counts rows from the
  end (the number of rows is added to it). A node's count is the sum of ones over the edges whose target is the node.
  The mean over a node's incoming edges of an array h: gather row "source" of h for every edge, add the gathered rows up
  at the edges' targets, and divide each node's row by its count, clipped below at one. The kernel's program applies these
  operations, in this order and with these shape records, between its calls; each of the four stretches of host operations
  is read here at the buffers the calls and the later stretches take, for any contents the stretch starts from.
-/
import proofs.«129689_j46712064311554_1_alg».proof.Proof.Gen.KernelIdeal.Launch
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Facts₀ Cert.KernelIdeal.Facts

/-- Arrays of 32-bit words and of reals of a shape. -/
abbrev Words (S : Shape) : Type := (⟨S, .i32⟩ : BufTy).Contents (Elt Ideal)
abbrev Reals (S : Shape) : Type := (⟨S, .f32⟩ : BufTy).Contents (Elt Ideal)

/-- The edges' source words: row 0 of the edge array. -/
def srcWords (e : Words S2x800000) : Words S800000 :=
  shapeCast S800000 (extractStridedSlice S1x800000 ![0, 0] e slices_S2x800000_S1x800000_0_0) shapeCasts_S1x800000_S800000

/-- The edges' target words: row 1 of the edge array. -/
def dstWords (e : Words S2x800000) : Words S800000 :=
  shapeCast S800000 (extractStridedSlice S1x800000 ![1, 0] e slices_S2x800000_S1x800000_1_0) shapeCasts_S1x800000_S800000

/-- The source words as row numbers, one per edge: a word below zero has the number of rows added. -/
def srcRows (s : Words S800000) : Words S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The target words as a column, one per edge. -/
def dstRows (d : Words S800000) : Words S800000x1 :=
  broadcastInDim S800000x1 ![0] bcast_S800000_S800000x1_0 d

/-- Each node's number of incoming edges: ones added up at the edges' targets. -/
def inCounts (d : Words S800000) : Reals S50000 :=
  Host.scatterAdd (F := Ideal) scatter_S50000_S800000x1_S800000_n_0_0_1
    (broadcastInDim S50000 ![] bcast_S_S50000 (constant (F := Ideal) S_ .f32 0x00000000#32)) (dstRows d)
    (broadcastInDim S800000 ![] bcast_S_S800000 (constant (F := Ideal) S_ .f32 0x3F800000#32))

/-- The mean over incoming edges of the rows of a [50000, 128] array. -/
def mean128 (s d : Words S800000) (cnt : Reals S50000) (h : Reals S50000x128) : Reals S50000x128 :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (dstRows d)
      (Host.gather gather_S50000x128_S800000x1_S800000x128_1_0_n_n_0_1_1128 h (srcRows s)))
    (broadcastInDim S50000x128 ![0, 1] bcast_S50000x1_S50000x128_0_1
      (broadcastInDim S50000x1 ![0] bcast_S50000_S50000x1_0
        (maximumf (F := Ideal) cnt (broadcastInDim S50000 ![] bcast_S_S50000 (constant (F := Ideal) S_ .f32 0x3F800000#32)))))

/-- The mean over incoming edges of the rows of a [50000, 64] array. -/
def mean64 (s d : Words S800000) (cnt : Reals S50000) (h : Reals S50000x64) : Reals S50000x64 :=
  Host.divf (F := Ideal)
    (Host.scatterAdd (F := Ideal) scatter_S50000x64_S800000x1_S800000x64_1_0_0_1
      (broadcastInDim S50000x64 ![] bcast_S_S50000x64 (constant (F := Ideal) S_ .f32 0x00000000#32)) (dstRows d)
      (Host.gather gather_S50000x64_S800000x1_S800000x64_1_0_n_n_0_1_164 h (srcRows s)))
    (broadcastInDim S50000x64 ![0, 1] bcast_S50000x1_S50000x64_0_1
      (broadcastInDim S50000x1 ![0] bcast_S50000_S50000x1_0
        (maximumf (F := Ideal) cnt (broadcastInDim S50000 ![] bcast_S_S50000 (constant (F := Ideal) S_ .f32 0x3F800000#32)))))

/-- The first layer's bias as a [1, 128] row, and the second's as a [1, 64] row. -/
def biasRow128 (b : Reals S128) : Reals S1x128 := shapeCast S1x128 b shapeCasts_S128_S1x128
def biasRow64 (b : Reals S64) : Reals S1x64 := shapeCast S1x64 b shapeCasts_S64_S1x64

variable (W : Valuation τ sig (Elt Ideal))

/-! ## The stretch before the first call -/

theorem before0_src : after (Gen.hostOps0 (F := Ideal)) W (Proc.devRef .tc main_v1) = srcWords (W (Proc.devRef .tc main_arg1)) := by
  after_results <;> rfl
theorem before0_dst : after (Gen.hostOps0 (F := Ideal)) W (Proc.devRef .tc main_v3) = dstWords (W (Proc.devRef .tc main_arg1)) := by
  after_results <;> rfl
theorem before0_cnt : after (Gen.hostOps0 (F := Ideal)) W (Proc.devRef .tc main_v7) = inCounts (dstWords (W (Proc.devRef .tc main_arg1))) := by
  after_results <;> rfl
theorem before0_bias : after (Gen.hostOps0 (F := Ideal)) W (Proc.devRef .tc main_v8) = biasRow128 (W (Proc.devRef .tc main_arg4)) := by
  after_results <;> rfl
theorem before0_arg0 : after (Gen.hostOps0 (F := Ideal)) W (Proc.devRef .tc main_arg0) = W (Proc.devRef .tc main_arg0) := by
  after_results <;> rfl
theorem before0_arg2 : after (Gen.hostOps0 (F := Ideal)) W (Proc.devRef .tc main_arg2) = W (Proc.devRef .tc main_arg2) := by
  after_results <;> rfl
theorem before0_arg3 : after (Gen.hostOps0 (F := Ideal)) W (Proc.devRef .tc main_arg3) = W (Proc.devRef .tc main_arg3) := by
  after_results <;> rfl
theorem before0_arg5 : after (Gen.hostOps0 (F := Ideal)) W (Proc.devRef .tc main_arg5) = W (Proc.devRef .tc main_arg5) := by
  after_results <;> rfl
theorem before0_arg6 : after (Gen.hostOps0 (F := Ideal)) W (Proc.devRef .tc main_arg6) = W (Proc.devRef .tc main_arg6) := by
  after_results <;> rfl
theorem before0_arg7 : after (Gen.hostOps0 (F := Ideal)) W (Proc.devRef .tc main_arg7) = W (Proc.devRef .tc main_arg7) := by
  after_results <;> rfl

/-! ## The stretch between the first and the second call -/

set_option maxHeartbeats 2000000 in
theorem before1_mean : after (Gen.hostOps1 (F := Ideal)) W (Proc.devRef .tc main_v24)
    = mean128 (W (Proc.devRef .tc main_v1)) (W (Proc.devRef .tc main_v3)) (W (Proc.devRef .tc main_v7)) (W (Proc.devRef .tc main_v9_0)) := by
  after_results_simp <;> rfl
theorem before1_own : after (Gen.hostOps1 (F := Ideal)) W (Proc.devRef .tc main_v9_1) = W (Proc.devRef .tc main_v9_1) := by
  after_results <;> rfl
theorem before1_src : after (Gen.hostOps1 (F := Ideal)) W (Proc.devRef .tc main_v1) = W (Proc.devRef .tc main_v1) := by
  after_results <;> rfl
theorem before1_dst : after (Gen.hostOps1 (F := Ideal)) W (Proc.devRef .tc main_v3) = W (Proc.devRef .tc main_v3) := by
  after_results <;> rfl
theorem before1_cnt : after (Gen.hostOps1 (F := Ideal)) W (Proc.devRef .tc main_v7) = W (Proc.devRef .tc main_v7) := by
  after_results <;> rfl
theorem before1_arg5 : after (Gen.hostOps1 (F := Ideal)) W (Proc.devRef .tc main_arg5) = W (Proc.devRef .tc main_arg5) := by
  after_results <;> rfl
theorem before1_arg6 : after (Gen.hostOps1 (F := Ideal)) W (Proc.devRef .tc main_arg6) = W (Proc.devRef .tc main_arg6) := by
  after_results <;> rfl
theorem before1_arg7 : after (Gen.hostOps1 (F := Ideal)) W (Proc.devRef .tc main_arg7) = W (Proc.devRef .tc main_arg7) := by
  after_results <;> rfl

/-! ## The stretch between the second and the third call -/

theorem before2_bias : after (Gen.hostOps2 (F := Ideal)) W (Proc.devRef .tc main_v26) = biasRow64 (W (Proc.devRef .tc main_arg7)) := by
  after_results <;> rfl
theorem before2_feat : after (Gen.hostOps2 (F := Ideal)) W (Proc.devRef .tc main_v25) = W (Proc.devRef .tc main_v25) := by
  after_results <;> rfl
theorem before2_src : after (Gen.hostOps2 (F := Ideal)) W (Proc.devRef .tc main_v1) = W (Proc.devRef .tc main_v1) := by
  after_results <;> rfl
theorem before2_dst : after (Gen.hostOps2 (F := Ideal)) W (Proc.devRef .tc main_v3) = W (Proc.devRef .tc main_v3) := by
  after_results <;> rfl
theorem before2_cnt : after (Gen.hostOps2 (F := Ideal)) W (Proc.devRef .tc main_v7) = W (Proc.devRef .tc main_v7) := by
  after_results <;> rfl
theorem before2_arg5 : after (Gen.hostOps2 (F := Ideal)) W (Proc.devRef .tc main_arg5) = W (Proc.devRef .tc main_arg5) := by
  after_results <;> rfl
theorem before2_arg6 : after (Gen.hostOps2 (F := Ideal)) W (Proc.devRef .tc main_arg6) = W (Proc.devRef .tc main_arg6) := by
  after_results <;> rfl

/-! ## The stretch between the third and the last call -/

set_option maxHeartbeats 2000000 in
theorem before3_mean : after (Gen.hostOps3 (F := Ideal)) W (Proc.devRef .tc main_v42)
    = mean64 (W (Proc.devRef .tc main_v1)) (W (Proc.devRef .tc main_v3)) (W (Proc.devRef .tc main_v7)) (W (Proc.devRef .tc main_v27_0)) := by
  after_results_simp <;> rfl
theorem before3_own : after (Gen.hostOps3 (F := Ideal)) W (Proc.devRef .tc main_v27_1) = W (Proc.devRef .tc main_v27_1) := by
  after_results <;> rfl

end Cert.KernelIdeal.Hand

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibDenseRows.lean ====
/-
  Rows of a dense layer over the extended reals.

  A graph layer takes, for each node r, the mean A (r, ·) of its neighbours' feature rows and the node's own row X (r, ·),
  sends the first through a weight matrix Wl and the second through Wr, and adds a bias row b:

      pre (r, c) = sum over k of A (r, k) * Wl (k, c)  +  sum over k of X (r, k) * Wr (k, c)  +  b (c).

  Two spellings of that entry are read here at any extents: the host's, two whole products [M, K] x [K, N] and the bias
  broadcast through a [1, N] row; and a tile's, two products of a block of rows into the zero accumulator and the bias
  cast to a [1, N] row and broadcast down the tile. Each is the entry `pre` of its operands; a tile of rows o … o + T - 1
  of the arrays is then the same entry at row o + r, since an entry of a product reads one row of the left operand only.
-/
import Idealize.ShloMosaic.Lib.ValueIdx
import Idealize.ShloMosaic.Lib.ValueLayout
import Idealize.ShloMosaic.Lib.Pipeline.Value
import Idealize.ShloMosaic.PureOps.Ideal.Laws
import proofs.«129689_j46712064311554_1_alg».proof.Proof.LibPlainMatmul

noncomputable section

namespace Cert.DenseRows

open Idealize.ShloMosaic Idealize.ShloMosaic.ValueIdx

variable {M K N : ℕ}

/-- Entry (r, c) of the host's product [M, K] x [K, N] is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-- The layer's entry (r, c) before its activation. -/
def pre (A X : (⟨2, ![M, K]⟩ : Shape).Idx → EReal) (Wl Wr : (⟨2, ![K, N]⟩ : Shape).Idx → EReal)
    (b : (⟨1, ![N]⟩ : Shape).Idx → EReal) (r : Fin M) (c : Fin N) : EReal :=
  (∑ k : Fin K, A (ix2 r k) * Wl (ix2 k c)) + (∑ k : Fin K, X (ix2 r k) * Wr (ix2 k c)) + b (ix1 c)

/-- A bias row broadcast first to [1, N] and then to [M, N] reads, at (r, c), the bias at c. -/
theorem hostBias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  rw [broadcastInDim_apply ![0, 1] h2 _ (ix2 r c) (ix2 (0 : Fin 1) c) (fun a => by
    match a with
    | ⟨0, _⟩ => rfl
    | ⟨1, _⟩ =>
      show c.val = if N = 1 then 0 else c.val
      split
      · have := c.isLt; omega
      · rfl)]
  exact broadcastInDim_apply ![1] h1 b (ix2 (0 : Fin 1) c) (ix1 c) (fun a => by
    match a with
    | ⟨0, _⟩ =>
      show c.val = if N = 1 then 0 else c.val
      split
      · have := c.isLt; omega
      · rfl)

/-- The host's spelling of the layer before its activation — two whole products added, then the bias broadcast through a
    [1, N] row — is `pre` at every entry. -/
theorem host_pre (prec : Option ContractPrecision) (A X : FVec Ideal ⟨2, ![M, K]⟩ .f32) (Wl Wr : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (addf (Host.dotGeneral (DotDims.plain M K N) prec A Wl) (Host.dotGeneral (DotDims.plain M K N) prec X Wr))
        (broadcastInDim ⟨2, ![M, N]⟩ ![0, 1] h2 (broadcastInDim ⟨2, ![1, N]⟩ ![1] h1 b)) (ix2 r c)
      = pre A X Wl Wr b r c := by
  show Host.dotGeneral (DotDims.plain M K N) prec A Wl (ix2 r c) + Host.dotGeneral (DotDims.plain M K N) prec X Wr (ix2 r c)
      + broadcastInDim ⟨2, ![M, N]⟩ ![0, 1] h2 (broadcastInDim ⟨2, ![1, N]⟩ ![1] h1 b) (ix2 r c) = _
  rw [hostDot_apply, hostDot_apply, hostBias_apply]
  rfl

/-- A tile's spelling — two products of [M, K] blocks into the zero accumulator added, then the bias cast to a [1, N] row and
    broadcast down the tile — is `pre` of the tile's operands at every entry, whatever the operands' float formats. -/
theorem tile_pre (prec : Option ContractPrecision) {φa φw : FTy} (A X : FVec Ideal ⟨2, ![M, K]⟩ φa) (Wl Wr : FVec Ideal ⟨2, ![K, N]⟩ φw)
    (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) (r : Fin M) (c : Fin N) :
    addf (addf (matmul (DotDims.plain M K N) prec A Wl (constant ⟨2, ![M, N]⟩ .f32 0x00000000#32))
          (matmul (DotDims.plain M K N) prec X Wr (constant ⟨2, ![M, N]⟩ .f32 0x00000000#32)))
        (broadcastTo ⟨2, ![M, N]⟩ (shapeCast ⟨2, ![1, N]⟩ b h1) h2) (ix2 r c)
      = pre A X Wl Wr b r c := by
  show FloatOps.matmul (DotDims.plain M K N) prec A Wl (constant ⟨2, ![M, N]⟩ .f32 0x00000000#32) (ix2 r c)
      + FloatOps.matmul (DotDims.plain M K N) prec X Wr (constant ⟨2, ![M, N]⟩ .f32 0x00000000#32) (ix2 r c)
      + broadcastTo ⟨2, ![M, N]⟩ (shapeCast ⟨2, ![1, N]⟩ b h1) h2 (ix2 r c) = _
  rw [Cert.PlainMatmul.apply, Cert.PlainMatmul.apply, broadcastTo_1b_ab_apply, shapeCast_a_1a_apply]
  rfl

/-- An entry of the layer reads one row of each left operand: if a tile's left operands are rows o, o + 1, … of the arrays'
    and its weights and bias are the arrays', the tile's entry (r, c) is the arrays' entry (o + r, c). -/
theorem pre_rows {T : ℕ} (o : ℕ) (A X : (⟨2, ![M, K]⟩ : Shape).Idx → EReal) (Wl Wr : (⟨2, ![K, N]⟩ : Shape).Idx → EReal)
    (b : (⟨1, ![N]⟩ : Shape).Idx → EReal)
    (At Xt : (⟨2, ![T, K]⟩ : Shape).Idx → EReal) (Wlt Wrt : (⟨2, ![K, N]⟩ : Shape).Idx → EReal) (bt : (⟨1, ![N]⟩ : Shape).Idx → EReal)
    (r : Fin T) (R : Fin M) (hR : R.val = o + r.val) (c : Fin N)
    (hA : ∀ k : Fin K, At (ix2 r k) = A (ix2 R k)) (hX : ∀ k : Fin K, Xt (ix2 r k) = X (ix2 R k))
    (hWl : ∀ k : Fin K, Wlt (ix2 k c) = Wl (ix2 k c)) (hWr : ∀ k : Fin K, Wrt (ix2 k c) = Wr (ix2 k c))
    (hb : bt (ix1 c) = b (ix1 c)) :
    pre At Xt Wlt Wrt bt r c = pre A X Wl Wr b R c := by
  unfold pre
  rw [hb]
  congr 2
  · exact Finset.sum_congr rfl fun k _ => by rw [hA k, hWl k]
  · exact Finset.sum_congr rfl fun k _ => by rw [hX k, hWr k]

end Cert.DenseRows

end
-- ==== Proof.FirstCall.lean ====
/-
  The first call of the program: two products of the node features with a weight matrix, ten tiles of 5000 rows each.

  At point t the body loads rows 5000 t … 5000 t + 4999 of the features x ([50000, 128]), the whole of the two weight
  matrices ([128, 128]) and the bias as a [1, 128] row. It stores into tile t of the first result the product of the
  tile with the first matrix, and into tile t of the second result the product of the tile with the second matrix plus
  the bias row. (The body narrows its operands to bfloat16 before multiplying; over the extended reals a change of
  format is the identity.) An entry of a product reads one row of the left operand only, so row 5000 t + p of the
  whole product x W is row p of the product of tile t with W. Once every tile is written back the first result is
  x W for the first matrix and the second is x W' + b, the bias read at the entry's column.
-/
import proofs.«129689_j46712064311554_1_alg».proof.Proof.Gen.KernelIdeal.Frame
import Idealize.ShloMosaic.Lib.Pipeline.Value
import Idealize.ShloMosaic.Lib.Tactic
import Idealize.ShloMosaic.PureOps.Ideal
import Idealize.ShloMosaic.PureOps.Ideal.Laws
import Idealize.ShloMosaic.Lib.ValueIdx
import Idealize.ShloMosaic.Lib.ValueLayout
import proofs.«129689_j46712064311554_1_alg».proof.Proof.LibPlainMatmul
import proofs.«129689_j46712064311554_1_alg».proof.Proof.LibDenseRows

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx

private theorem origin2 : (![0, 0] : Fin 2 → Nat) = fun _ => 0 := funext fun a => by fin_cases a <;> rfl

/-- The first call's operands as it finds them: the features, the two weight matrices, the bias as a row. -/
abbrev feat0 (c : Dev nD) : FVec Ideal S50000x128 .f32 := V c main_arg0
abbrev wNbr0 (c : Dev nD) : FVec Ideal S128x128 .f32 := V c main_arg2
abbrev wOwn0 (c : Dev nD) : FVec Ideal S128x128 .f32 := V c main_arg3
abbrev biasRow0 (c : Dev nD) : FVec Ideal S1x128 .f32 := V c main_v8

/-- The features times the first matrix: what the neighbours' rows are gathered from. -/
abbrev nbrProduct0 (c : Dev nD) : FVec Ideal S50000x128 .f32 :=
  Host.dotGeneral (F := Ideal) (DotDims.plain 50000 128 128) none (feat0 V c) (wNbr0 V c)
/-- The features times the second matrix plus the bias of the entry's column: the node's own term. -/
abbrev ownTerm0 (c : Dev nD) : FVec Ideal S50000x128 .f32 :=
  fun i => Host.dotGeneral (F := Ideal) (DotDims.plain 50000 128 128) none (feat0 V c) (wOwn0 V c) i + biasRow0 V c (ix2 (0 : Fin 1) (i 1 : Fin 128))

/-- Entry (p, q) of the first stored tile: the sum over k of x (p, k) W (k, q). -/
theorem nbrTile0 (x : Vec Ideal S5000x128 .f32) (w : Vec Ideal S128x128 .f32) (p : Fin 5000) (q : Fin 128) :
    k0_pay2 x w (ix2 p q) = ∑ k : Fin 128, x (ix2 p k) * w (ix2 k q) := by
  unfold k0_pay2 k0_pay1
  show FloatOps.matmul (F := Ideal) (DotDims.plain 5000 128 128) none (truncf (F := Ideal) .bf16 x _) (truncf (F := Ideal) .bf16 w _)
      (constant (F := Ideal) ⟨2, ![5000, 128]⟩ .f32 0x00000000#32) (ix2 p q) = _
  rw [Cert.PlainMatmul.apply]
  rfl

/-- Entry (p, q) of the second stored tile: the sum over k of x (p, k) W' (k, q), plus the bias row at column q. -/
theorem ownTile0 (x : Vec Ideal S5000x128 .f32) (w : Vec Ideal S128x128 .f32) (b : Vec Ideal S1x128 .f32) (p : Fin 5000) (q : Fin 128) :
    k0_pay3 x w b (ix2 p q) = (∑ k : Fin 128, x (ix2 p k) * w (ix2 k q)) + b (ix2 (0 : Fin 1) q) := by
  unfold k0_pay3 k0_pay1
  show FloatOps.matmul (F := Ideal) (DotDims.plain 5000 128 128) none (truncf (F := Ideal) .bf16 x _) (truncf (F := Ideal) .bf16 w _)
      (constant (F := Ideal) ⟨2, ![5000, 128]⟩ .f32 0x00000000#32) (ix2 p q)
      + broadcastTo ⟨2, ![5000, 128]⟩ (shapeCast ⟨2, ![1, 128]⟩ b _) _ (ix2 p q) = _
  rw [Cert.PlainMatmul.apply, broadcastTo_1b_ab_apply, shapeCast_self]
  rfl

/-- Where the windows of the first call sit at point t: the features and both results on tile t, the weights and the
    bias row on their one block. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The blocks the body loads at point t, at their literal types. -/
abbrev featTile0 (c : Dev nD) (t : Fin cfg0.N) : Vec Ideal S5000x128 .f32 := iblk0 V c 0 t
abbrev wNbrTile0 (c : Dev nD) (t : Fin cfg0.N) : Vec Ideal S128x128 .f32 := iblk0 V c 1 t
abbrev wOwnTile0 (c : Dev nD) (t : Fin cfg0.N) : Vec Ideal S128x128 .f32 := iblk0 V c 2 t
abbrev biasTile0 (c : Dev nD) (t : Fin cfg0.N) : Vec Ideal S1x128 .f32 := iblk0 V c 3 t

/-- Row p of the features' tile t is row 5000 t + p of the features. -/
theorem featTile0_apply (c : Dev nD) (t : Fin cfg0.N) (p : Fin 5000) (k : Fin 128) (R : Fin 50000)
    (hR : R.val = 5000 * t.val + p.val) : featTile0 V c t (ix2 p k) = feat0 V c (ix2 R k) := by
  obtain ⟨e0, e1, -⟩ := tiles0 t
  show iblk0 V c 0 t (ix2 p k) = _
  unfold iblk0
  rw [View.read_apply]
  show V c main_arg0 _ = V c main_arg0 _
  congr 1
  funext a; apply Fin.ext
  match a with
  | ⟨0, _⟩ => show win0_0.index t (0 : Fin 2) * 5000 + 1 * p.val = R.val; omega
  | ⟨1, _⟩ => show win0_0.index t (1 : Fin 2) * 128 + 1 * k.val = k.val; omega

/-- The first weight matrix's one block is the matrix. -/
theorem wNbrTile0_apply (c : Dev nD) (t : Fin cfg0.N) (k q : Fin 128) : wNbrTile0 V c t (ix2 k q) = wNbr0 V c (ix2 k q) := by
  obtain ⟨-, -, e2, e3, -⟩ := tiles0 t
  show iblk0 V c 1 t (ix2 k q) = _
  unfold iblk0
  rw [View.read_apply]
  show V c main_arg2 _ = V c main_arg2 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The second weight matrix's one block is the matrix. -/
theorem wOwnTile0_apply (c : Dev nD) (t : Fin cfg0.N) (k q : Fin 128) : wOwnTile0 V c t (ix2 k q) = wOwn0 V c (ix2 k q) := by
  obtain ⟨-, -, -, -, e4, e5, -⟩ := tiles0 t
  show iblk0 V c 2 t (ix2 k q) = _
  unfold iblk0
  rw [View.read_apply]
  show V c main_arg3 _ = V c main_arg3 _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias row's one block is the row. -/
theorem biasTile0_apply (c : Dev nD) (t : Fin cfg0.N) (q : Fin 128) :
    biasTile0 V c t (ix2 (0 : Fin 1) q) = biasRow0 V c (ix2 (0 : Fin 1) q) := by
  obtain ⟨-, -, -, -, -, -, e6, e7, -⟩ := tiles0 t
  show iblk0 V c 3 t (ix2 (0 : Fin 1) q) = _
  unfold iblk0
  rw [View.read_apply]
  show V c main_v8 _ = V c main_v8 _
  congr 1
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- What point t writes back into the first result is tile t of the features times the first matrix. -/
theorem flushed0_4 (c : Dev nD) (t : Fin cfg0.N) :
    (dat0 V c).flushed 4 t = ((cfg0.win 4).blk t).view.read (Elt Ideal) (nbrProduct0 V c) := by
  show (cfg0.win 4).cut (grid0.coords t) ((dat0 V c).after 4 t) = _
  rw [after0_4]
  unfold out0_4
  rw [View.canon_unit_zero origin2]
  simp only [View.ld_unit_zero (S := S5000x128) origin2, View.ld_unit_zero (S := S128x128) origin2]
  obtain ⟨-, -, -, -, -, -, -, -, e8, e9, -⟩ := tiles0 t
  have hN : cfg0.N = 10 := N_0
  have ht : t.val < 10 := by have := t.isLt; omega
  funext j
  obtain ⟨p, q, rfl⟩ : ∃ (p : Fin 5000) (q : Fin 128), j = ix2 p q := ⟨j 0, j 1, eq_ix2 j⟩
  have hR : 5000 * t.val + p.val < 50000 := by have := p.isLt; omega
  show k0_pay2 (featTile0 V c t) (wNbrTile0 V c t) (ix2 p q) = nbrProduct0 V c (((cfg0.win 4).blk t).view.emb (ix2 p q))
  have hemb : ((cfg0.win 4).blk t).view.emb (ix2 p q) = ix2 (⟨5000 * t.val + p.val, hR⟩ : Fin 50000) q := by
    funext a; apply Fin.ext
    match a with
    | ⟨0, _⟩ => show win0_4.index t (0 : Fin 2) * 5000 + 1 * p.val = 5000 * t.val + p.val; omega
    | ⟨1, _⟩ => show win0_4.index t (1 : Fin 2) * 128 + 1 * q.val = q.val; omega
  rw [hemb, nbrTile0]
  show _ = Host.dotGeneral (F := Ideal) (DotDims.plain 50000 128 128) none (feat0 V c) (wNbr0 V c) (ix2 (⟨5000 * t.val + p.val, hR⟩ : Fin 50000) q)
  rw [Cert.DenseRows.hostDot_apply]
  refine Finset.sum_congr rfl fun k _ => ?_
  rw [featTile0_apply V c t p k ⟨5000 * t.val + p.val, hR⟩ rfl, wNbrTile0_apply V c t k q]

/-- What point t writes back into the second result is tile t of the features times the second matrix plus the bias. -/
theorem flushed0_5 (c : Dev nD) (t : Fin cfg0.N) :
    (dat0 V c).flushed 5 t = ((cfg0.win 5).blk t).view.read (Elt Ideal) (ownTerm0 V c) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S1x128) origin2]
  obtain ⟨-, -, -, -, -, -, -, -, -, -, e10, e11⟩ := tiles0 t
  have hN : cfg0.N = 10 := N_0
  have ht : t.val < 10 := by have := t.isLt; omega
  funext j
  obtain ⟨p, q, rfl⟩ : ∃ (p : Fin 5000) (q : Fin 128), j = ix2 p q := ⟨j 0, j 1, eq_ix2 j⟩
  have hR : 5000 * t.val + p.val < 50000 := by have := p.isLt; omega
  show k0_pay3 (featTile0 V c t) (wOwnTile0 V c t) (biasTile0 V c t) (ix2 p q) = ownTerm0 V c (((cfg0.win 5).blk t).view.emb (ix2 p q))
  have hemb : ((cfg0.win 5).blk t).view.emb (ix2 p q) = ix2 (⟨5000 * t.val + p.val, hR⟩ : Fin 50000) q := by
    funext a; apply Fin.ext
    match a with
    | ⟨0, _⟩ => show win0_5.index t (0 : Fin 2) * 5000 + 1 * p.val = 5000 * t.val + p.val; omega
    | ⟨1, _⟩ => show win0_5.index t (1 : Fin 2) * 128 + 1 * q.val = q.val; omega
  rw [hemb, ownTile0]
  show _ = Host.dotGeneral (F := Ideal) (DotDims.plain 50000 128 128) none (feat0 V c) (wOwn0 V c) (ix2 (⟨5000 * t.val + p.val, hR⟩ : Fin 50000) q)
      + biasRow0 V c (ix2 (0 : Fin 1) q)
  rw [Cert.DenseRows.hostDot_apply, biasTile0_apply V c t q]
  congr 1
  refine Finset.sum_congr rfl fun k _ => ?_
  rw [featTile0_apply V c t p k ⟨5000 * t.val + p.val, hR⟩ rfl, wOwnTile0_apply V c t k q]

/-- An entry of the first result lies in tile t exactly when each coordinate lies in the tile's range on its axis. -/
theorem mem_tile0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v9_0).slice (win0_4.rect t)).set ↔ _
  rw [View.set_slice_whole, Rect.mem_set_unit]
  exact Iff.rfl

/-- The same for the second result. -/
theorem mem_tile0_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v9_1).slice (win0_5.rect t)).set ↔ _
  rw [View.set_slice_whole, Rect.mem_set_unit]
  exact Iff.rfl

/-- THE FIRST RESULT of the first call: the features times the first matrix. Row r is in tile r / 5000. -/
theorem firstCall_nbr (c : Dev nD) : (dat0 V c).arrAt 4 cfg0.N = nbrProduct0 V c :=
  (dat0 V c).arrAt_eq_of_cover 4 (nbrProduct0 V c) (fun t _ => flushed0_4 V c t) fun i => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨-, -, -, -, -, -, -, -, e8, e9, -⟩ := tiles0 t
    have ht : t.val = (i 0).val / 5000 := rfl
    refine ⟨t, flush0_4 t, ?_⟩
    rw [mem_tile0_4]
    intro a
    match a with
    | ⟨0, _⟩ => show win0_4.index t (0 : Fin 2) * 5000 ≤ (i 0).val ∧ (i 0).val < win0_4.index t (0 : Fin 2) * 5000 + 5000; omega
    | ⟨1, _⟩ => show win0_4.index t (1 : Fin 2) * 128 ≤ (i 1).val ∧ (i 1).val < win0_4.index t (1 : Fin 2) * 128 + 128; omega

/-- THE SECOND RESULT of the first call: the features times the second matrix plus the bias. Row r is in tile r / 5000. -/
theorem firstCall_own (c : Dev nD) : (dat0 V c).arrAt 5 cfg0.N = ownTerm0 V c :=
  (dat0 V c).arrAt_eq_of_cover 5 (ownTerm0 V c) (fun t _ => flushed0_5 V c t) fun i => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨-, -, -, -, -, -, -, -, -, -, e10, e11⟩ := tiles0 t
    have ht : t.val = (i 0).val / 5000 := rfl
    refine ⟨t, flush0_5 t, ?_⟩
    rw [mem_tile0_5]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 128 ≤ (i 1).val ∧ (i 1).val < win0_5.index t (1 : Fin 2) * 128 + 128; omega

end Cert.KernelIdeal.Hand

end
-- ==== Proof.MidCall.lean ====
/-
  The second call of the program adds two [50000, 128] arrays and clips the sum at zero, ten tiles of 5000 rows each.

  Tile t of each operand and of the result is rows 5000 t … 5000 t + 4999, all 128 columns; the body adds the two tiles
  entry by entry, takes the larger of the sum and zero, and stores it. So the result array, once every tile is written
  back, holds max (a + b, 0) entry by entry, a and b the two operand arrays as the call finds them: row r is written by
  tile r / 5000 and by no other. Zero stays the word the body broadcasts; nothing here needs its value.
-/
import proofs.«129689_j46712064311554_1_alg».proof.Proof.Gen.KernelIdeal.Frame
import Idealize.ShloMosaic.Lib.Pipeline.Value
import Idealize.ShloMosaic.Lib.Tactic
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

private theorem origin2 : (![0, 0] : Fin 2 → Nat) = fun _ => 0 := funext fun a => by fin_cases a <;> rfl

/-- The second call's first operand, the neighbours' mean of the first layer, as the call finds it. -/
abbrev meanMid (c : Dev nD) : S50000x128.Idx → EReal := V c main_v24
/-- The second call's second operand, the first layer's own-row term, as the call finds it. -/
abbrev ownMid (c : Dev nD) : S50000x128.Idx → EReal := V c main_v9_1
/-- The entrywise sum of the two operand arrays of the second call, clipped at zero. -/
abbrev clippedMid (c : Dev nD) : S50000x128.Idx → EReal :=
  fun i => max (meanMid V c i + ownMid V c i) (Ideal.ofBits .f32 0x00000000#32)

/-- What the body stores: the sum of its two loaded tiles clipped at zero (the casts in between keep the shape). -/
theorem body1 (x0 x1 : Vec Ideal S5000x128 .f32) :
    k1_pay1 x0 x1 = fun j => max (x0 j + x1 j) (Ideal.ofBits .f32 0x00000000#32) := by
  unfold k1_pay1
  simp only [shapeCast_self]
  rfl

/-- All three windows of the second call sit on tile t at point t: block row t, block column 0. -/
theorem tiles1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is tile t of the clipped sum. -/
theorem flushed1 (c : Dev nD) (t : Fin cfg1.N) :
    (dat1 V c).flushed 2 t = ((cfg1.win 2).blk t).view.read (Elt Ideal) (clippedMid V c) := by
  show (cfg1.win 2).cut (grid1.coords t) ((dat1 V c).after 2 t) = _
  rw [after1_2]
  unfold out1_2
  rw [View.canon_unit_zero origin2]
  simp only [View.ld_unit_zero (S := S5000x128) origin2]
  rw [body1]
  obtain ⟨e0, e1, e2, e3, e4, e5⟩ := tiles1 t
  funext j
  show max (meanMid V c (((cfg1.win 0).blk t).view.emb j) + ownMid V c (((cfg1.win 1).blk t).view.emb j)) (Ideal.ofBits .f32 0x00000000#32)
    = max (meanMid V c (((cfg1.win 2).blk t).view.emb j) + ownMid V c (((cfg1.win 2).blk t).view.emb j)) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An entry of the result array lies in tile t exactly when each coordinate lies in the tile's range on its axis. -/
theorem mem_tile1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v25).slice (win1_2.rect t)).set ↔ _
  rw [View.set_slice_whole, Rect.mem_set_unit]
  exact Iff.rfl

/-- THE RESULT ARRAY of the second call: the entrywise sum of its operands clipped at zero. Row r is in tile r / 5000. -/
theorem midCall_result (c : Dev nD) : (dat1 V c).arrAt 2 cfg1.N = clippedMid V c :=
  (dat1 V c).arrAt_eq_of_cover 2 (clippedMid V c) (fun t _ => flushed1 V c t) fun i => by
    have hi0 : (i 0).val < 50000 := (i 0).isLt
    have hi1 : (i 1).val < 128 := (i 1).isLt
    have hN : cfg1.N = 10 := N_1
    let t : Fin cfg1.N := ⟨(i 0).val / 5000, by rw [hN]; omega⟩
    obtain ⟨-, -, -, -, e4, e5⟩ := tiles1 t
    have ht : t.val = (i 0).val / 5000 := rfl
    refine ⟨t, flush1_2 t, ?_⟩
    rw [mem_tile1]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

end Cert.KernelIdeal.Hand

end
-- ==== Proof.ThirdCall.lean ====
/-
  The third call of the program: two products of the first layer's output with a weight matrix, ten tiles of 5000 rows.

  At point t the body loads rows 5000 t … 5000 t + 4999 of the layer's output y ([50000, 128]), the whole of the two
  weight matrices ([128, 64]) and the bias as a [1, 64] row. It stores into tile t of the first result the product of
  the tile with the first matrix, and into tile t of the second result the product of the tile with the second matrix
  plus the bias row. (The body narrows its operands to bfloat16 before multiplying; over the extended reals a change of
  format is the identity.) An entry of a product reads one row of the left operand only, so row 5000 t + p of the whole
  product y W is row p of the product of tile t with W. Once every tile is written back the first result is y W for
  the first matrix and the second is y W' + b, the bias read at the entry's column.
-/
import proofs.«129689_j46712064311554_1_alg».proof.Proof.Gen.KernelIdeal.Frame
import Idealize.ShloMosaic.Lib.Pipeline.Value
import Idealize.ShloMosaic.Lib.Tactic
import Idealize.ShloMosaic.PureOps.Ideal
import Idealize.ShloMosaic.PureOps.Ideal.Laws
import Idealize.ShloMosaic.Lib.ValueIdx
import Idealize.ShloMosaic.Lib.ValueLayout
import proofs.«129689_j46712064311554_1_alg».proof.Proof.LibPlainMatmul
import proofs.«129689_j46712064311554_1_alg».proof.Proof.LibDenseRows

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx

private theorem origin2 : (![0, 0] : Fin 2 → Nat) = fun _ => 0 := funext fun a => by fin_cases a <;> rfl

/-- The third call's operands as it finds them: the first layer's output, the two weight matrices, the bias as a row. -/
abbrev feat2 (c : Dev nD) : FVec Ideal S50000x128 .f32 := V c main_v25
abbrev wNbr2 (c : Dev nD) : FVec Ideal S128x64 .f32 := V c main_arg5
abbrev wOwn2 (c : Dev nD) : FVec Ideal S128x64 .f32 := V c main_arg6
abbrev biasRow2 (c : Dev nD) : FVec Ideal S1x64 .f32 := V c main_v26

/-- The layer's output times the first matrix: what the neighbours' rows are gathered from. -/
abbrev nbrProduct2 (c : Dev nD) : FVec Ideal S50000x64 .f32 :=
  Host.dotGeneral (F := Ideal) (DotDims.plain 50000 128 64) none (feat2 V c) (wNbr2 V c)
/-- The layer's output times the second matrix plus the bias of the entry's column: the node's own term. -/
abbrev ownTerm2 (c : Dev nD) : FVec Ideal S50000x64 .f32 :=
  fun i => Host.dotGeneral (F := Ideal) (DotDims.plain 50000 128 64) none (feat2 V c) (wOwn2 V c) i + biasRow2 V c (ix2 (0 : Fin 1) (i 1 : Fin 64))

/-- Entry (p, q) of the first stored tile: the sum over k of y (p, k) W (k, q). -/
theorem nbrTile2 (x : Vec Ideal S5000x128 .f32) (w : Vec Ideal S128x64 .f32) (p : Fin 5000) (q : Fin 64) :
    k2_pay2 x w (ix2 p q) = ∑ k : Fin 128, x (ix2 p k) * w (ix2 k q) := by
  unfold k2_pay2 k2_pay1
  simp only [shapeCast_self]
  show FloatOps.matmul (F := Ideal) (DotDims.plain 5000 128 64) none (truncf (F := Ideal) .bf16 x _) (truncf (F := Ideal) .bf16 w _)
      (constant (F := Ideal) ⟨2, ![5000, 64]⟩ .f32 0x00000000#32) (ix2 p q) = _
  rw [Cert.PlainMatmul.apply]
  rfl

/-- Entry (p, q) of the second stored tile: the sum over k of y (p, k) W' (k, q), plus the bias row at column q. -/
theorem ownTile2 (x : Vec Ideal S5000x128 .f32) (w : Vec Ideal S128x64 .f32) (b : Vec Ideal S1x64 .f32) (p : Fin 5000) (q : Fin 64) :
    k2_pay3 x w b (ix2 p q) = (∑ k : Fin 128, x (ix2 p k) * w (ix2 k q)) + b (ix2 (0 : Fin 1) q) := by
  unfold k2_pay3 k2_pay1
  simp only [shapeCast_self]
  show FloatOps.matmul (F := Ideal) (DotDims.plain 5000 128 64) none (truncf (F := Ideal) .bf16 x _) (truncf (F := Ideal) .bf16 w _)
      (constant (F := Ideal) ⟨2, ![5000, 64]⟩ .f32 0x00000000#32) (ix2 p q)
      + broadcastTo ⟨2, ![5000, 64]⟩ b _ (ix2 p q) = _
  rw [Cert.PlainMatmul.apply, broadcastTo_1b_ab_apply]
  rfl

/-- Where the windows of the third call sit at point t: the layer's output and both results on tile t, the weights and
    the bias row on their one block. -/
theorem tiles2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The blocks the body loads at point t, at their literal types. -/
abbrev featTile2 (c : Dev nD) (t : Fin cfg2.N) : Vec Ideal S5000x128 .f32 := iblk2 V c 0 t
abbrev wNbrTile2 (c : Dev nD) (t : Fin cfg2.N) : Vec Ideal S128x64 .f32 := iblk2 V c 1 t
abbrev wOwnTile2 (c : Dev nD) (t : Fin cfg2.N) : Vec Ideal S128x64 .f32 := iblk2 V c 2 t
abbrev biasTile2 (c : Dev nD) (t : Fin cfg2.N) : Vec Ideal S1x64 .f32 := iblk2 V c 3 t

/-- Row p of the layer output's tile t is row 5000 t + p of the layer's output. -/
theorem featTile2_apply (c : Dev nD) (t : Fin cfg2.N) (p : Fin 5000) (k : Fin 128) (R : Fin 50000)
    (hR : R.val = 5000 * t.val + p.val) : featTile2 V c t (ix2 p k) = feat2 V c (ix2 R k) := by
  obtain ⟨e0, e1, -⟩ := tiles2 t
  show iblk2 V c 0 t (ix2 p k) = _
  unfold iblk2
  rw [View.read_apply]
  show V c main_v25 _ = V c main_v25 _
  congr 1
  funext a; apply Fin.ext
  match a with
  | ⟨0, _⟩ => show win2_0.index t (0 : Fin 2) * 5000 + 1 * p.val = R.val; omega
  | ⟨1, _⟩ => show win2_0.index t (1 : Fin 2) * 128 + 1 * k.val = k.val; omega

/-- The first weight matrix's one block is the matrix. -/
theorem wNbrTile2_apply (c : Dev nD) (t : Fin cfg2.N) (k : Fin 128) (q : Fin 64) : wNbrTile2 V c t (ix2 k q) = wNbr2 V c (ix2 k q) := by
  obtain ⟨-, -, e2, e3, -⟩ := tiles2 t
  show iblk2 V c 1 t (ix2 k q) = _
  unfold iblk2
  rw [View.read_apply]
  show V c main_arg5 _ = V c main_arg5 _
  congr 1
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- The second weight matrix's one block is the matrix. -/
theorem wOwnTile2_apply (c : Dev nD) (t : Fin cfg2.N) (k : Fin 128) (q : Fin 64) : wOwnTile2 V c t (ix2 k q) = wOwn2 V c (ix2 k q) := by
  obtain ⟨-, -, -, -, e4, e5, -⟩ := tiles2 t
  show iblk2 V c 2 t (ix2 k q) = _
  unfold iblk2
  rw [View.read_apply]
  show V c main_arg6 _ = V c main_arg6 _
  congr 1
  funext a; apply Fin.ext
  match a with
  | ⟨0, _⟩ => show win2_2.index t (0 : Fin 2) * 128 + 1 * k.val = k.val; omega
  | ⟨1, _⟩ => show win2_2.index t (1 : Fin 2) * 64 + 1 * q.val = q.val; omega

/-- The bias row's one block is the row. -/
theorem biasTile2_apply (c : Dev nD) (t : Fin cfg2.N) (q : Fin 64) :
    biasTile2 V c t (ix2 (0 : Fin 1) q) = biasRow2 V c (ix2 (0 : Fin 1) q) := by
  obtain ⟨-, -, -, -, -, -, e6, e7, -⟩ := tiles2 t
  show iblk2 V c 3 t (ix2 (0 : Fin 1) q) = _
  unfold iblk2
  rw [View.read_apply]
  show V c main_v26 _ = V c main_v26 _
  congr 1
  funext a; apply Fin.ext
  match a with
  | ⟨0, _⟩ => show win2_3.index t (0 : Fin 2) * 1 + 1 * 0 = 0; omega
  | ⟨1, _⟩ => show win2_3.index t (1 : Fin 2) * 64 + 1 * q.val = q.val; omega

/-- What point t writes back into the first result is tile t of the layer's output times the first matrix. -/
theorem flushed2_4 (c : Dev nD) (t : Fin cfg2.N) :
    (dat2 V c).flushed 4 t = ((cfg2.win 4).blk t).view.read (Elt Ideal) (nbrProduct2 V c) := by
  show (cfg2.win 4).cut (grid2.coords t) ((dat2 V c).after 4 t) = _
  rw [after2_4]
  unfold out2_4
  rw [View.canon_unit_zero origin2]
  simp only [View.ld_unit_zero (S := S5000x128) origin2, View.ld_unit_zero (S := S128x64) origin2]
  obtain ⟨-, -, -, -, -, -, -, -, e8, e9, -⟩ := tiles2 t
  have hN : cfg2.N = 10 := N_2
  have ht : t.val < 10 := by have := t.isLt; omega
  funext j
  obtain ⟨p, q, rfl⟩ : ∃ (p : Fin 5000) (q : Fin 64), j = ix2 p q := ⟨j 0, j 1, eq_ix2 j⟩
  have hR : 5000 * t.val + p.val < 50000 := by have := p.isLt; omega
  show k2_pay2 (featTile2 V c t) (wNbrTile2 V c t) (ix2 p q) = nbrProduct2 V c (((cfg2.win 4).blk t).view.emb (ix2 p q))
  have hemb : ((cfg2.win 4).blk t).view.emb (ix2 p q) = ix2 (⟨5000 * t.val + p.val, hR⟩ : Fin 50000) q := by
    funext a; apply Fin.ext
    match a with
    | ⟨0, _⟩ => show win2_4.index t (0 : Fin 2) * 5000 + 1 * p.val = 5000 * t.val + p.val; omega
    | ⟨1, _⟩ => show win2_4.index t (1 : Fin 2) * 64 + 1 * q.val = q.val; omega
  rw [hemb, nbrTile2]
  show _ = Host.dotGeneral (F := Ideal) (DotDims.plain 50000 128 64) none (feat2 V c) (wNbr2 V c) (ix2 (⟨5000 * t.val + p.val, hR⟩ : Fin 50000) q)
  rw [Cert.DenseRows.hostDot_apply]
  refine Finset.sum_congr rfl fun k _ => ?_
  rw [featTile2_apply V c t p k ⟨5000 * t.val + p.val, hR⟩ rfl, wNbrTile2_apply V c t k q]

/-- What point t writes back into the second result is tile t of the layer's output times the second matrix plus the bias. -/
theorem flushed2_5 (c : Dev nD) (t : Fin cfg2.N) :
    (dat2 V c).flushed 5 t = ((cfg2.win 5).blk t).view.read (Elt Ideal) (ownTerm2 V c) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x64) origin2, View.ld_unit_zero (S := S1x64) origin2]
  obtain ⟨-, -, -, -, -, -, -, -, -, -, e10, e11⟩ := tiles2 t
  have hN : cfg2.N = 10 := N_2
  have ht : t.val < 10 := by have := t.isLt; omega
  funext j
  obtain ⟨p, q, rfl⟩ : ∃ (p : Fin 5000) (q : Fin 64), j = ix2 p q := ⟨j 0, j 1, eq_ix2 j⟩
  have hR : 5000 * t.val + p.val < 50000 := by have := p.isLt; omega
  show k2_pay3 (featTile2 V c t) (wOwnTile2 V c t) (biasTile2 V c t) (ix2 p q) = ownTerm2 V c (((cfg2.win 5).blk t).view.emb (ix2 p q))
  have hemb : ((cfg2.win 5).blk t).view.emb (ix2 p q) = ix2 (⟨5000 * t.val + p.val, hR⟩ : Fin 50000) q := by
    funext a; apply Fin.ext
    match a with
    | ⟨0, _⟩ => show win2_5.index t (0 : Fin 2) * 5000 + 1 * p.val = 5000 * t.val + p.val; omega
    | ⟨1, _⟩ => show win2_5.index t (1 : Fin 2) * 64 + 1 * q.val = q.val; omega
  rw [hemb, ownTile2]
  show _ = Host.dotGeneral (F := Ideal) (DotDims.plain 50000 128 64) none (feat2 V c) (wOwn2 V c) (ix2 (⟨5000 * t.val + p.val, hR⟩ : Fin 50000) q)
      + biasRow2 V c (ix2 (0 : Fin 1) q)
  rw [Cert.DenseRows.hostDot_apply, biasTile2_apply V c t q]
  congr 1
  refine Finset.sum_congr rfl fun k _ => ?_
  rw [featTile2_apply V c t p k ⟨5000 * t.val + p.val, hR⟩ rfl, wOwnTile2_apply V c t k q]

/-- An entry of the first result lies in tile t exactly when each coordinate lies in the tile's range on its axis. -/
theorem mem_tile2_4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v27_0).slice (win2_4.rect t)).set ↔ _
  rw [View.set_slice_whole, Rect.mem_set_unit]
  exact Iff.rfl

/-- The same for the second result. -/
theorem mem_tile2_5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v27_1).slice (win2_5.rect t)).set ↔ _
  rw [View.set_slice_whole, Rect.mem_set_unit]
  exact Iff.rfl

/-- THE FIRST RESULT of the third call: the layer's output times the first matrix. Row r is in tile r / 5000. -/
theorem thirdCall_nbr (c : Dev nD) : (dat2 V c).arrAt 4 cfg2.N = nbrProduct2 V c :=
  (dat2 V c).arrAt_eq_of_cover 4 (nbrProduct2 V c) (fun t _ => flushed2_4 V c t) fun i => by
    have hi0 : (i 0).val < 50000 := (i 0).isLt
    have hi1 : (i 1).val < 64 := (i 1).isLt
    have hN : cfg2.N = 10 := N_2
    let t : Fin cfg2.N := ⟨(i 0).val / 5000, by rw [hN]; omega⟩
    obtain ⟨-, -, -, -, -, -, -, -, e8, e9, -⟩ := tiles2 t
    have ht : t.val = (i 0).val / 5000 := rfl
    refine ⟨t, flush2_4 t, ?_⟩
    rw [mem_tile2_4]
    intro a
    match a with
    | ⟨0, _⟩ => show win2_4.index t (0 : Fin 2) * 5000 ≤ (i 0).val ∧ (i 0).val < win2_4.index t (0 : Fin 2) * 5000 + 5000; omega
    | ⟨1, _⟩ => show win2_4.index t (1 : Fin 2) * 64 ≤ (i 1).val ∧ (i 1).val < win2_4.index t (1 : Fin 2) * 64 + 64; omega

/-- THE SECOND RESULT of the third call: the layer's output times the second matrix plus the bias. Row r is in tile r / 5000. -/
theorem thirdCall_own (c : Dev nD) : (dat2 V c).arrAt 5 cfg2.N = ownTerm2 V c :=
  (dat2 V c).arrAt_eq_of_cover 5 (ownTerm2 V c) (fun t _ => flushed2_5 V c t) fun i => by
    have hi0 : (i 0).val < 50000 := (i 0).isLt
    have hi1 : (i 1).val < 64 := (i 1).isLt
    have hN : cfg2.N = 10 := N_2
    let t : Fin cfg2.N := ⟨(i 0).val / 5000, by rw [hN]; omega⟩
    obtain ⟨-, -, -, -, -, -, -, -, -, -, e10, e11⟩ := tiles2 t
    have ht : t.val = (i 0).val / 5000 := rfl
    refine ⟨t, flush2_5 t, ?_⟩
    rw [mem_tile2_5]
    intro a
    match a with
    | ⟨0, _⟩ => show win2_5.index t (0 : Fin 2) * 5000 ≤ (i 0).val ∧ (i 0).val < win2_5.index t (0 : Fin 2) * 5000 + 5000; omega
    | ⟨1, _⟩ => show win2_5.index t (1 : Fin 2) * 64 ≤ (i 1).val ∧ (i 1).val < win2_5.index t (1 : Fin 2) * 64 + 64; omega

end Cert.KernelIdeal.Hand

end
-- ==== Proof.LastCall.lean ====
/-
  The last call of the program adds two [50000, 64] arrays, ten tiles of 5000 rows each.

  Tile t of each operand and of the result is rows 5000 t … 5000 t + 4999, all 64 columns; the body adds the two
  tiles entry by entry and stores the sum. So the result array, once every tile is written back, is the entrywise sum
  of the two operand arrays as the call finds them: row r is written by tile r / 5000 and by no other.
-/
import proofs.«129689_j46712064311554_1_alg».proof.Proof.Gen.KernelIdeal.Frame
import Idealize.ShloMosaic.Lib.Pipeline.Value
import Idealize.ShloMosaic.Lib.Tactic
import Idealize.ShloMosaic.PureOps.Ideal
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

private theorem origin2 : (![0, 0] : Fin 2 → Nat) = fun _ => 0 := funext fun a => by fin_cases a <;> rfl

/-- The last call's first operand, the neighbours' mean of the second layer, as the call finds it. -/
abbrev meanLast (c : Dev nD) : S50000x64.Idx → EReal := V c main_v42
/-- The last call's second operand, the second layer's own-row term, as the call finds it. -/
abbrev ownLast (c : Dev nD) : S50000x64.Idx → EReal := V c main_v27_1
/-- The entrywise sum of the two operand arrays of the last call, as the call finds them. -/
abbrev sumLast (c : Dev nD) : S50000x64.Idx → EReal := fun i => meanLast V c i + ownLast V c i

/-- What the body stores: the sum of its two loaded tiles (the casts in between keep the shape). -/
theorem body3 (x0 x1 : Vec Ideal S5000x64 .f32) : k3_pay1 x0 x1 = addf x0 x1 := by
  unfold k3_pay1
  simp only [shapeCast_self]

/-- All three windows of the last call sit on tile t at point t: block row t, block column 0. -/
theorem tiles3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is tile t of the entrywise sum. -/
theorem flushed3 (c : Dev nD) (t : Fin cfg3.N) :
    (dat3 V c).flushed 2 t = ((cfg3.win 2).blk t).view.read (Elt Ideal) (sumLast V c) := by
  show (cfg3.win 2).cut (grid3.coords t) ((dat3 V c).after 2 t) = _
  rw [after3_2]
  unfold out3_2
  rw [View.canon_unit_zero origin2]
  simp only [View.ld_unit_zero (S := S5000x64) origin2]
  rw [body3]
  obtain ⟨e0, e1, e2, e3, e4, e5⟩ := tiles3 t
  funext j
  show meanLast V c (((cfg3.win 0).blk t).view.emb j) + ownLast V c (((cfg3.win 1).blk t).view.emb j)
    = meanLast V c (((cfg3.win 2).blk t).view.emb j) + ownLast V c (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  rw [h0, h1]

/-- An entry of the result array lies in tile t exactly when each coordinate lies in the tile's range on its axis. -/
theorem mem_tile3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v43).slice (win3_2.rect t)).set ↔ _
  rw [View.set_slice_whole, Rect.mem_set_unit]
  exact Iff.rfl

/-- THE RESULT ARRAY of the last call: the entrywise sum of its operands. Row r is in tile r / 5000. -/
theorem lastCall_result (c : Dev nD) : (dat3 V c).arrAt 2 cfg3.N = sumLast V c :=
  (dat3 V c).arrAt_eq_of_cover 2 (sumLast V c) (fun t _ => flushed3 V c t) fun i => by
    have hi0 : (i 0).val < 50000 := (i 0).isLt
    have hi1 : (i 1).val < 64 := (i 1).isLt
    have hN : cfg3.N = 10 := N_3
    let t : Fin cfg3.N := ⟨(i 0).val / 5000, by rw [hN]; omega⟩
    obtain ⟨-, -, -, -, e4, e5⟩ := tiles3 t
    have ht : t.val = (i 0).val / 5000 := rfl
    refine ⟨t, flush3_2 t, ?_⟩
    rw [mem_tile3]
    intro a
    match a with
    | ⟨0, _⟩ => show win3_2.index t (0 : Fin 2) * 5000 ≤ (i 0).val ∧ (i 0).val < win3_2.index t (0 : Fin 2) * 5000 + 5000; omega
    | ⟨1, _⟩ => show win3_2.index t (1 : Fin 2) * 64 ≤ (i 1).val ∧ (i 1).val < win3_2.index t (1 : Fin 2) * 64 + 64; omega

end Cert.KernelIdeal.Hand

end
-- ==== Proof.Boundaries.lean ====
/-
  The kernel's program, read from the launch to its result.

  Its result is two graph-convolution layers. With x the node features, s and d the edges' source and target words,
  cnt the nodes' numbers of incoming edges and "mean" the mean over a node's incoming edges, the first layer is

      y (r, q) = max (mean (x W1) (r, q) + ((x L1) (r, q) + b1 (q)), 0)

  and the result is  mean (y W2) (r, q) + ((y L2) (r, q) + b2 (q)).

  The program computes it in eight steps: a stretch of host operations (the edge words, the counts, the first bias as a
  row), the first call (x W1 and x L1 + b1), a stretch (the mean of x W1), the second call (the sum clipped at zero), a
  stretch (the second bias as a row), the third call (y W2 and y L2 + b2), a stretch (the mean of y W2) and the last
  call (the sum). Here the buffers are followed through the eight boundaries: what a stretch computes is read off the
  stretch; what a call writes is its result array; every other buffer a step needs is one the steps before it left alone.
-/
import proofs.«129689_j46712064311554_1_alg».proof.Proof.Gen.KernelIdeal.Frame
import proofs.«129689_j46712064311554_1_alg».proof.Proof.HostStretches
import proofs.«129689_j46712064311554_1_alg».proof.Proof.FirstCall
import proofs.«129689_j46712064311554_1_alg».proof.Proof.MidCall
import proofs.«129689_j46712064311554_1_alg».proof.Proof.ThirdCall
import proofs.«129689_j46712064311554_1_alg».proof.Proof.LastCall

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-! ## The arguments and the result's pieces -/

abbrev argX (c : Dev nD) : FVec Ideal S50000x128 .f32 := m ((c : Thread nD τ).loc main_arg0)
abbrev argE (c : Dev nD) : Words S2x800000 := m ((c : Thread nD τ).loc main_arg1)
abbrev argW1 (c : Dev nD) : FVec Ideal S128x128 .f32 := m ((c : Thread nD τ).loc main_arg2)
abbrev argL1 (c : Dev nD) : FVec Ideal S128x128 .f32 := m ((c : Thread nD τ).loc main_arg3)
abbrev argB1 (c : Dev nD) : Reals S128 := m ((c : Thread nD τ).loc main_arg4)
abbrev argW2 (c : Dev nD) : FVec Ideal S128x64 .f32 := m ((c : Thread nD τ).loc main_arg5)
abbrev argL2 (c : Dev nD) : FVec Ideal S128x64 .f32 := m ((c : Thread nD τ).loc main_arg6)
abbrev argB2 (c : Dev nD) : Reals S64 := m ((c : Thread nD τ).loc main_arg7)

/-- The edges' source words, target words, and the nodes' counts. -/
abbrev edgeSrc (c : Dev nD) : Words S800000 := srcWords (argE m c)
abbrev edgeDst (c : Dev nD) : Words S800000 := dstWords (argE m c)
abbrev nodeCnt (c : Dev nD) : Reals S50000 := inCounts (dstWords (argE m c))

/-- First layer: x W1, its mean over incoming edges, x L1 + b1, and the layer's output. -/
def nbr1 (c : Dev nD) : FVec Ideal S50000x128 .f32 :=
  Host.dotGeneral (F := Ideal) (DotDims.plain 50000 128 128) none (argX m c) (argW1 m c)
def own1 (c : Dev nD) : FVec Ideal S50000x128 .f32 :=
  fun i => Host.dotGeneral (F := Ideal) (DotDims.plain 50000 128 128) none (argX m c) (argL1 m c) i
    + (biasRow128 (argB1 m c) : FVec Ideal S1x128 .f32) (ix2 (0 : Fin 1) (i 1 : Fin 128))
def mean1 (c : Dev nD) : FVec Ideal S50000x128 .f32 := mean128 (edgeSrc m c) (edgeDst m c) (nodeCnt m c) (nbr1 m c)
def layer1 (c : Dev nD) : FVec Ideal S50000x128 .f32 :=
  fun i => max (mean1 m c i + own1 m c i) (Ideal.ofBits .f32 0x00000000#32)

/-- Second layer: y W2, its mean over incoming edges, y L2 + b2, and the result. -/
def nbr2 (c : Dev nD) : FVec Ideal S50000x64 .f32 :=
  Host.dotGeneral (F := Ideal) (DotDims.plain 50000 128 64) none (layer1 m c) (argW2 m c)
def own2 (c : Dev nD) : FVec Ideal S50000x64 .f32 :=
  fun i => Host.dotGeneral (F := Ideal) (DotDims.plain 50000 128 64) none (layer1 m c) (argL2 m c) i
    + (biasRow64 (argB2 m c) : FVec Ideal S1x64 .f32) (ix2 (0 : Fin 1) (i 1 : Fin 64))
def mean2 (c : Dev nD) : FVec Ideal S50000x64 .f32 := mean64 (edgeSrc m c) (edgeDst m c) (nodeCnt m c) (nbr2 m c)
def kernelOut (c : Dev nD) : FVec Ideal S50000x64 .f32 := fun i => mean2 m c i + own2 m c i

/-! ## Boundary 1: the first call's entry -/

theorem at1_src (c : Dev nD) : W1 m ρ c (Proc.devRef .tc main_v1) = edgeSrc m c := before0_src (W0 m ρ c)
theorem at1_dst (c : Dev nD) : W1 m ρ c (Proc.devRef .tc main_v3) = edgeDst m c := before0_dst (W0 m ρ c)
theorem at1_cnt (c : Dev nD) : W1 m ρ c (Proc.devRef .tc main_v7) = nodeCnt m c := before0_cnt (W0 m ρ c)
theorem at1_bias (c : Dev nD) : W1 m ρ c (Proc.devRef .tc main_v8) = biasRow128 (argB1 m c) := before0_bias (W0 m ρ c)
theorem at1_x (c : Dev nD) : W1 m ρ c (Proc.devRef .tc main_arg0) = argX m c := before0_arg0 (W0 m ρ c)
theorem at1_w (c : Dev nD) : W1 m ρ c (Proc.devRef .tc main_arg2) = argW1 m c := before0_arg2 (W0 m ρ c)
theorem at1_l (c : Dev nD) : W1 m ρ c (Proc.devRef .tc main_arg3) = argL1 m c := before0_arg3 (W0 m ρ c)
theorem at1_w2 (c : Dev nD) : W1 m ρ c (Proc.devRef .tc main_arg5) = argW2 m c := before0_arg5 (W0 m ρ c)
theorem at1_l2 (c : Dev nD) : W1 m ρ c (Proc.devRef .tc main_arg6) = argL2 m c := before0_arg6 (W0 m ρ c)
theorem at1_b2 (c : Dev nD) : W1 m ρ c (Proc.devRef .tc main_arg7) = argB2 m c := before0_arg7 (W0 m ρ c)

/-! ## Boundary 2: the first call's exit -/

theorem at2_nbr (c : Dev nD) : W2 m ρ c (Proc.devRef .tc main_v9_0) = nbr1 m c := by
  refine ((W2_arr m ρ c 4).trans (firstCall_nbr (V1 m ρ) c)).trans ?_
  show Host.dotGeneral (F := Ideal) (DotDims.plain 50000 128 128) none (W1 m ρ c (Proc.devRef .tc main_arg0)) (W1 m ρ c (Proc.devRef .tc main_arg2)) = _
  rw [at1_x, at1_w]
  rfl
theorem at2_own (c : Dev nD) : W2 m ρ c (Proc.devRef .tc main_v9_1) = own1 m c := by
  refine ((W2_arr m ρ c 5).trans (firstCall_own (V1 m ρ) c)).trans ?_
  show (fun i => Host.dotGeneral (F := Ideal) (DotDims.plain 50000 128 128) none (W1 m ρ c (Proc.devRef .tc main_arg0)) (W1 m ρ c (Proc.devRef .tc main_arg3)) i
      + (W1 m ρ c (Proc.devRef .tc main_v8) : FVec Ideal S1x128 .f32) (ix2 (0 : Fin 1) (i 1 : Fin 128))) = _
  rw [at1_x, at1_l, at1_bias]
  rfl
theorem at2_src (c : Dev nD) : W2 m ρ c (Proc.devRef .tc main_v1) = edgeSrc m c := (W2_of_ne m ρ c main_v1 (by decide)).trans (at1_src m ρ c)
theorem at2_dst (c : Dev nD) : W2 m ρ c (Proc.devRef .tc main_v3) = edgeDst m c := (W2_of_ne m ρ c main_v3 (by decide)).trans (at1_dst m ρ c)
theorem at2_cnt (c : Dev nD) : W2 m ρ c (Proc.devRef .tc main_v7) = nodeCnt m c := (W2_of_ne m ρ c main_v7 (by decide)).trans (at1_cnt m ρ c)
theorem at2_w2 (c : Dev nD) : W2 m ρ c (Proc.devRef .tc main_arg5) = argW2 m c := (W2_of_ne m ρ c main_arg5 (by decide)).trans (at1_w2 m ρ c)
theorem at2_l2 (c : Dev nD) : W2 m ρ c (Proc.devRef .tc main_arg6) = argL2 m c := (W2_of_ne m ρ c main_arg6 (by decide)).trans (at1_l2 m ρ c)
theorem at2_b2 (c : Dev nD) : W2 m ρ c (Proc.devRef .tc main_arg7) = argB2 m c := (W2_of_ne m ρ c main_arg7 (by decide)).trans (at1_b2 m ρ c)

/-! ## Boundary 3: the second call's entry -/

theorem at3_mean (c : Dev nD) : W3 m ρ c (Proc.devRef .tc main_v24) = mean1 m c := by
  refine (before1_mean (W2 m ρ c)).trans ?_
  rw [at2_src, at2_dst, at2_cnt, at2_nbr]
  rfl
theorem at3_own (c : Dev nD) : W3 m ρ c (Proc.devRef .tc main_v9_1) = own1 m c := (before1_own (W2 m ρ c)).trans (at2_own m ρ c)
theorem at3_src (c : Dev nD) : W3 m ρ c (Proc.devRef .tc main_v1) = edgeSrc m c := (before1_src (W2 m ρ c)).trans (at2_src m ρ c)
theorem at3_dst (c : Dev nD) : W3 m ρ c (Proc.devRef .tc main_v3) = edgeDst m c := (before1_dst (W2 m ρ c)).trans (at2_dst m ρ c)
theorem at3_cnt (c : Dev nD) : W3 m ρ c (Proc.devRef .tc main_v7) = nodeCnt m c := (before1_cnt (W2 m ρ c)).trans (at2_cnt m ρ c)
theorem at3_w2 (c : Dev nD) : W3 m ρ c (Proc.devRef .tc main_arg5) = argW2 m c := (before1_arg5 (W2 m ρ c)).trans (at2_w2 m ρ c)
theorem at3_l2 (c : Dev nD) : W3 m ρ c (Proc.devRef .tc main_arg6) = argL2 m c := (before1_arg6 (W2 m ρ c)).trans (at2_l2 m ρ c)
theorem at3_b2 (c : Dev nD) : W3 m ρ c (Proc.devRef .tc main_arg7) = argB2 m c := (before1_arg7 (W2 m ρ c)).trans (at2_b2 m ρ c)

/-! ## Boundary 4: the second call's exit -/

theorem at4_y (c : Dev nD) : W4 m ρ c (Proc.devRef .tc main_v25) = layer1 m c := by
  refine ((W4_arr m ρ c 2).trans (midCall_result (V3 m ρ) c)).trans ?_
  have h1 : meanMid (V3 m ρ) c = mean1 m c := at3_mean m ρ c
  have h2 : ownMid (V3 m ρ) c = own1 m c := at3_own m ρ c
  show (fun i => max (meanMid (V3 m ρ) c i + ownMid (V3 m ρ) c i) (Ideal.ofBits .f32 0x00000000#32)) = _
  rw [h1, h2]
  rfl
theorem at4_src (c : Dev nD) : W4 m ρ c (Proc.devRef .tc main_v1) = edgeSrc m c := (W4_of_ne m ρ c main_v1 (by decide)).trans (at3_src m ρ c)
theorem at4_dst (c : Dev nD) : W4 m ρ c (Proc.devRef .tc main_v3) = edgeDst m c := (W4_of_ne m ρ c main_v3 (by decide)).trans (at3_dst m ρ c)
theorem at4_cnt (c : Dev nD) : W4 m ρ c (Proc.devRef .tc main_v7) = nodeCnt m c := (W4_of_ne m ρ c main_v7 (by decide)).trans (at3_cnt m ρ c)
theorem at4_w2 (c : Dev nD) : W4 m ρ c (Proc.devRef .tc main_arg5) = argW2 m c := (W4_of_ne m ρ c main_arg5 (by decide)).trans (at3_w2 m ρ c)
theorem at4_l2 (c : Dev nD) : W4 m ρ c (Proc.devRef .tc main_arg6) = argL2 m c := (W4_of_ne m ρ c main_arg6 (by decide)).trans (at3_l2 m ρ c)
theorem at4_b2 (c : Dev nD) : W4 m ρ c (Proc.devRef .tc main_arg7) = argB2 m c := (W4_of_ne m ρ c main_arg7 (by decide)).trans (at3_b2 m ρ c)

/-! ## Boundary 5: the third call's entry -/

theorem at5_bias (c : Dev nD) : W5 m ρ c (Proc.devRef .tc main_v26) = biasRow64 (argB2 m c) := by
  refine (before2_bias (W4 m ρ c)).trans ?_
  rw [at4_b2]
theorem at5_y (c : Dev nD) : W5 m ρ c (Proc.devRef .tc main_v25) = layer1 m c := (before2_feat (W4 m ρ c)).trans (at4_y m ρ c)
theorem at5_src (c : Dev nD) : W5 m ρ c (Proc.devRef .tc main_v1) = edgeSrc m c := (before2_src (W4 m ρ c)).trans (at4_src m ρ c)
theorem at5_dst (c : Dev nD) : W5 m ρ c (Proc.devRef .tc main_v3) = edgeDst m c := (before2_dst (W4 m ρ c)).trans (at4_dst m ρ c)
theorem at5_cnt (c : Dev nD) : W5 m ρ c (Proc.devRef .tc main_v7) = nodeCnt m c := (before2_cnt (W4 m ρ c)).trans (at4_cnt m ρ c)
theorem at5_w2 (c : Dev nD) : W5 m ρ c (Proc.devRef .tc main_arg5) = argW2 m c := (before2_arg5 (W4 m ρ c)).trans (at4_w2 m ρ c)
theorem at5_l2 (c : Dev nD) : W5 m ρ c (Proc.devRef .tc main_arg6) = argL2 m c := (before2_arg6 (W4 m ρ c)).trans (at4_l2 m ρ c)

/-! ## Boundary 6: the third call's exit -/

theorem at6_nbr (c : Dev nD) : W6 m ρ c (Proc.devRef .tc main_v27_0) = nbr2 m c := by
  refine ((W6_arr m ρ c 4).trans (thirdCall_nbr (V5 m ρ) c)).trans ?_
  show Host.dotGeneral (F := Ideal) (DotDims.plain 50000 128 64) none (W5 m ρ c (Proc.devRef .tc main_v25)) (W5 m ρ c (Proc.devRef .tc main_arg5)) = _
  rw [at5_y, at5_w2]
  rfl
theorem at6_own (c : Dev nD) : W6 m ρ c (Proc.devRef .tc main_v27_1) = own2 m c := by
  refine ((W6_arr m ρ c 5).trans (thirdCall_own (V5 m ρ) c)).trans ?_
  show (fun i => Host.dotGeneral (F := Ideal) (DotDims.plain 50000 128 64) none (W5 m ρ c (Proc.devRef .tc main_v25)) (W5 m ρ c (Proc.devRef .tc main_arg6)) i
      + (W5 m ρ c (Proc.devRef .tc main_v26) : FVec Ideal S1x64 .f32) (ix2 (0 : Fin 1) (i 1 : Fin 64))) = _
  rw [at5_y, at5_l2, at5_bias]
  rfl
theorem at6_src (c : Dev nD) : W6 m ρ c (Proc.devRef .tc main_v1) = edgeSrc m c := (W6_of_ne m ρ c main_v1 (by decide)).trans (at5_src m ρ c)
theorem at6_dst (c : Dev nD) : W6 m ρ c (Proc.devRef .tc main_v3) = edgeDst m c := (W6_of_ne m ρ c main_v3 (by decide)).trans (at5_dst m ρ c)
theorem at6_cnt (c : Dev nD) : W6 m ρ c (Proc.devRef .tc main_v7) = nodeCnt m c := (W6_of_ne m ρ c main_v7 (by decide)).trans (at5_cnt m ρ c)

/-! ## Boundary 7: the last call's entry -/

theorem at7_mean (c : Dev nD) : W7 m ρ c (Proc.devRef .tc main_v42) = mean2 m c := by
  refine (before3_mean (W6 m ρ c)).trans ?_
  rw [at6_src, at6_dst, at6_cnt, at6_nbr]
  rfl
theorem at7_own (c : Dev nD) : W7 m ρ c (Proc.devRef .tc main_v27_1) = own2 m c := (before3_own (W6 m ρ c)).trans (at6_own m ρ c)

/-! ## Boundary 8: the return -/

/-- THE RESULT: the result array at the return holds the two layers. -/
theorem at8_out (c : Dev nD) : W8 m ρ c (Proc.devRef .tc main_v43) = kernelOut m c := by
  refine ((W8_arr m ρ c 2).trans (lastCall_result (V7 m ρ) c)).trans ?_
  have h1 : meanLast (V7 m ρ) c = mean2 m c := at7_mean m ρ c
  have h2 : ownLast (V7 m ρ) c = own2 m c := at7_own m ρ c
  show (fun i => meanLast (V7 m ρ) c i + ownLast (V7 m ρ) c i) = _
  rw [h1, h2]
  rfl

end Cert.KernelIdeal.Hand

end
-- ==== Proof.RefTerm.lean ====
/-
  The reference program's result, named.

  The reference computes two graph-convolution layers with host operations only. With x the node features, s and d the
  edges' source and target words, cnt the nodes' numbers of incoming edges and "mean" the mean over a node's incoming
  edges (gather the source rows, add them up at the targets, divide by the count clipped below at one), the first layer is

      y = max ((mean (x W1) + x L1) + b1, 0)

  with the bias broadcast over the rows, and the result is (mean (y W2) + y L2) + b2. The run of the reference ends
  with its result buffer at one long term of the arguments; here that term is written with the operations named, so
  that it can be compared with the kernel's, piece by piece.
-/
import proofs.«129689_j46712064311554_1_alg».proof.Proof.Gen.ReferenceIdeal.Run
import Idealize.ShloMosaic.PureOps.Ideal
import Idealize.ShloMosaic.Lib.IdealHost
import Idealize.ShloMosaic.Lib.ValueIdx

set_option maxRecDepth 16384

noncomputable section

open Idealize.ShloMosaic Idealize.ShloMosaic.TcCoe Idealize.SL.Sem

namespace Cert.ReferenceIdeal.Hand

open Cert.ReferenceIdeal Cert.ReferenceIdeal.Facts₀ Cert.ReferenceIdeal.Facts

/-- Arrays of 32-bit words and of reals of a shape. -/
abbrev Words (S : Shape) : Type := (⟨S, .i32⟩ : BufTy).Contents (Elt Ideal)
abbrev Reals (S : Shape) : Type := (⟨S, .f32⟩ : BufTy).Contents (Elt Ideal)

/-- The edges' source words: row 0 of the edge array. -/
def srcWords (e : Words S2x800000) : Words S800000 :=
  shapeCast S800000 (extractStridedSlice S1x800000 ![0, 0] e slices_S2x800000_S1x800000_0_0) shapeCasts_S1x800000_S800000

/-- The edges' target words: row 1 of the edge array. -/
def dstWords (e : Words S2x800000) : Words S800000 :=
  shapeCast S800000 (extractStridedSlice S1x800000 ![1, 0] e slices_S2x800000_S1x800000_1_0) shapeCasts_S1x800000_S800000

/-- The source words as row numbers, one per edge: a word below zero has the number of rows added. -/
def srcRows (s : Words S800000) : Words S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The target words as a column, one per edge. -/
def dstRows (d : Words S800000) : Words S800000x1 :=
  broadcastInDim S800000x1 ![0] bcast_S800000_S800000x1_0 d

/-- Each node's number of incoming edges: ones added up at the edges' targets. -/
def inCounts (d : Words S800000) : Reals S50000 :=
  Host.scatterAdd (F := Ideal) scatter_S50000_S800000x1_S800000_n_0_0_1
    (broadcastInDim S50000 ![] bcast_S_S50000 (constant (F := Ideal) S_ .f32 0x00000000#32)) (dstRows d)
    (broadcastInDim S800000 ![] bcast_S_S800000 (constant (F := Ideal) S_ .f32 0x3F800000#32))

/-- The mean over incoming edges of the rows of a [50000, 128] array. -/
def mean128 (s d : Words S800000) (cnt : Reals S50000) (h : Reals S50000x128) : Reals S50000x128 :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (dstRows d)
      (Host.gather gather_S50000x128_S800000x1_S800000x128_1_0_n_n_0_1_1128 h (srcRows s)))
    (broadcastInDim S50000x128 ![0, 1] bcast_S50000x1_S50000x128_0_1
      (broadcastInDim S50000x1 ![0] bcast_S50000_S50000x1_0
        (maximumf (F := Ideal) cnt (broadcastInDim S50000 ![] bcast_S_S50000 (constant (F := Ideal) S_ .f32 0x3F800000#32)))))

/-- The mean over incoming edges of the rows of a [50000, 64] array. -/
def mean64 (s d : Words S800000) (cnt : Reals S50000) (h : Reals S50000x64) : Reals S50000x64 :=
  Host.divf (F := Ideal)
    (Host.scatterAdd (F := Ideal) scatter_S50000x64_S800000x1_S800000x64_1_0_0_1
      (broadcastInDim S50000x64 ![] bcast_S_S50000x64 (constant (F := Ideal) S_ .f32 0x00000000#32)) (dstRows d)
      (Host.gather gather_S50000x64_S800000x1_S800000x64_1_0_n_n_0_1_164 h (srcRows s)))
    (broadcastInDim S50000x64 ![0, 1] bcast_S50000x1_S50000x64_0_1
      (broadcastInDim S50000x1 ![0] bcast_S50000_S50000x1_0
        (maximumf (F := Ideal) cnt (broadcastInDim S50000 ![] bcast_S_S50000 (constant (F := Ideal) S_ .f32 0x3F800000#32)))))

/-- The first layer: max ((mean (x W1) + x L1) + b1, 0). -/
def hidden (x : FVec Ideal S50000x128 .f32) (e : Words S2x800000) (W1 L1 : FVec Ideal S128x128 .f32) (b1 : FVec Ideal S128 .f32) :
    FVec Ideal S50000x128 .f32 :=
  maximumf (F := Ideal)
    (addf (F := Ideal)
      (addf (F := Ideal)
        (mean128 (srcWords e) (dstWords e) (inCounts (dstWords e))
          (Host.dotGeneral (F := Ideal) dot_S50000x128_S128x128_S50000x128_1_0_0_1_n_n none x W1))
        (Host.dotGeneral (F := Ideal) dot_S50000x128_S128x128_S50000x128_1_0_0_1_n_n none x L1))
      (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

/-- The result: (mean (y W2) + y L2) + b2, y the first layer. -/
def refOut (x : FVec Ideal S50000x128 .f32) (e : Words S2x800000) (W1 L1 : FVec Ideal S128x128 .f32) (b1 : FVec Ideal S128 .f32)
    (W2 L2 : FVec Ideal S128x64 .f32) (b2 : FVec Ideal S64 .f32) : FVec Ideal S50000x64 .f32 :=
  addf (F := Ideal)
    (addf (F := Ideal)
      (mean64 (srcWords e) (dstWords e) (inCounts (dstWords e))
        (Host.dotGeneral (F := Ideal) dot_S50000x128_S128x64_S50000x64_1_0_0_1_n_n none (hidden x e W1 L1 b1) W2))
      (Host.dotGeneral (F := Ideal) dot_S50000x128_S128x64_S50000x64_1_0_0_1_n_n none (hidden x e W1 L1 b1) L2))
    (broadcastInDim S50000x64 ![0, 1] bcast_S1x64_S50000x64_0_1 (broadcastInDim S1x64 ![1] bcast_S64_S1x64_1 b2))

/-- An entry of the first layer: the sum of the mean, the node's own product and the bias, clipped at zero (zero the word
    the program broadcasts). -/
theorem hidden_apply (x : FVec Ideal S50000x128 .f32) (e : Words S2x800000) (W1 L1 : FVec Ideal S128x128 .f32) (b1 : FVec Ideal S128 .f32)
    (i : S50000x128.Idx) :
    hidden x e W1 L1 b1 i
      = max (((mean128 (srcWords e) (dstWords e) (inCounts (dstWords e))
                (Host.dotGeneral (F := Ideal) dot_S50000x128_S128x128_S50000x128_1_0_0_1_n_n none x W1) : FVec Ideal S50000x128 .f32) i
              + Host.dotGeneral (F := Ideal) dot_S50000x128_S128x128_S50000x128_1_0_0_1_n_n none x L1 i)
            + broadcastInDim S50000x128 ![0, 1] bcast_S1x128_S50000x128_0_1 (broadcastInDim S1x128 ![1] bcast_S128_S1x128_1 b1) i)
          (Ideal.ofBits .f32 0x00000000#32) := by
  unfold hidden
  rw [ValueIdx.maximumf_apply, ValueIdx.addf_apply, ValueIdx.addf_apply, ValueIdx.broadcastInDim_scalar_apply, ValueIdx.constant_apply]

/-- An entry of the result: the sum of the mean, the node's own product and the bias. -/
theorem refOut_apply (x : FVec Ideal S50000x128 .f32) (e : Words S2x800000) (W1 L1 : FVec Ideal S128x128 .f32) (b1 : FVec Ideal S128 .f32)
    (W2 L2 : FVec Ideal S128x64 .f32) (b2 : FVec Ideal S64 .f32) (i : S50000x64.Idx) :
    refOut x e W1 L1 b1 W2 L2 b2 i
      = ((mean64 (srcWords e) (dstWords e) (inCounts (dstWords e))
            (Host.dotGeneral (F := Ideal) dot_S50000x128_S128x64_S50000x64_1_0_0_1_n_n none (hidden x e W1 L1 b1) W2) : FVec Ideal S50000x64 .f32) i
          + Host.dotGeneral (F := Ideal) dot_S50000x128_S128x64_S50000x64_1_0_0_1_n_n none (hidden x e W1 L1 b1) L2 i)
        + broadcastInDim S50000x64 ![0, 1] bcast_S1x64_S50000x64_0_1 (broadcastInDim S1x64 ![1] bcast_S64_S1x64_1 b2) i := by
  unfold refOut
  rw [ValueIdx.addf_apply, ValueIdx.addf_apply]

set_option maxHeartbeats 4000000 in
/-- The term the reference's run ends at is the two named layers of the arguments. -/
theorem res_eq (m : (ℓ : Loc nD τ sig) → Buf (Elt Ideal) ℓ) (c : Dev nD) :
    Value.res_main_v54 (F := Ideal) m c
      = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Value.res_main_v54
  rfl

end Cert.ReferenceIdeal.Hand

end
-- ==== Proof.Join.lean ====
/-
  The kernel's result and the reference's result are one function of the arguments.

  Both programs compute, layer by layer, mean (h W) + h L + b. The reference adds left to right,
  (mean (h W) + h L) + b, the bias broadcast over the rows through a [1, n] row; the kernel's calls add the bias to
  h L first and the mean afterwards, mean (h W) + (h L + b), the bias cast to a [1, n] row and read at the entry's
  column. Addition of extended reals is associative, so the two agree entry by entry. The gathers, the sums over
  edges, the counts and the quotient are the same host operations on both sides with the same shape records, and the
  products are the plain matrix product with the same dimension numbers; only the records' names differ. The first
  layer is clipped at zero on both sides, the zero the same word.
-/
import proofs.«129689_j46712064311554_1_alg».proof.Proof.Boundaries
import proofs.«129689_j46712064311554_1_alg».proof.Proof.RefTerm
import proofs.«129689_j46712064311554_1_alg».proof.Proof.LibDenseRows
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.Join

/-- (a + d) + b with b broadcast over the rows through a [1, n] row is a + (d + b) with b cast to a [1, n] row and read
    at the entry's column. -/
theorem bias_join {M N : ℕ} (a d : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (i : (⟨2, ![M, N]⟩ : Shape).Idx) :
    (a i + d i) + broadcastInDim ⟨2, ![M, N]⟩ ![0, 1] h2 (broadcastInDim ⟨2, ![1, N]⟩ ![1] h1 b) i
      = a i + (d i + shapeCast ⟨2, ![1, N]⟩ b hc (ix2 (0 : Fin 1) (i 1 : Fin N))) := by
  obtain ⟨r, q, rfl⟩ : ∃ (r : Fin M) (q : Fin N), i = ix2 r q := ⟨i 0, i 1, eq_ix2 i⟩
  rw [Cert.DenseRows.hostBias_apply]
  show _ = a (ix2 r q) + (d (ix2 r q) + shapeCast ⟨2, ![1, N]⟩ b hc (ix2 (0 : Fin 1) q))
  rw [shapeCast_a_1a_apply]
  exact add_assoc _ _ _

/-! ## The same host operations under the two programs' names -/

theorem srcWords_eq (e : Cert.ReferenceIdeal.Hand.Words Cert.ReferenceIdeal.S2x800000) :
    Cert.ReferenceIdeal.Hand.srcWords e = Cert.KernelIdeal.Hand.srcWords e := rfl
theorem dstWords_eq (e : Cert.ReferenceIdeal.Hand.Words Cert.ReferenceIdeal.S2x800000) :
    Cert.ReferenceIdeal.Hand.dstWords e = Cert.KernelIdeal.Hand.dstWords e := rfl
theorem inCounts_eq (d : Cert.ReferenceIdeal.Hand.Words Cert.ReferenceIdeal.S800000) :
    Cert.ReferenceIdeal.Hand.inCounts d = Cert.KernelIdeal.Hand.inCounts d := rfl
theorem mean128_eq (s d : Cert.ReferenceIdeal.Hand.Words Cert.ReferenceIdeal.S800000)
    (cnt : Cert.ReferenceIdeal.Hand.Reals Cert.ReferenceIdeal.S50000) (h : Cert.ReferenceIdeal.Hand.Reals Cert.ReferenceIdeal.S50000x128) :
    Cert.ReferenceIdeal.Hand.mean128 s d cnt h = Cert.KernelIdeal.Hand.mean128 s d cnt h := rfl
theorem mean64_eq (s d : Cert.ReferenceIdeal.Hand.Words Cert.ReferenceIdeal.S800000)
    (cnt : Cert.ReferenceIdeal.Hand.Reals Cert.ReferenceIdeal.S50000) (h : Cert.ReferenceIdeal.Hand.Reals Cert.ReferenceIdeal.S50000x64) :
    Cert.ReferenceIdeal.Hand.mean64 s d cnt h = Cert.KernelIdeal.Hand.mean64 s d cnt h := rfl
theorem dot128_eq : Cert.ReferenceIdeal.dot_S50000x128_S128x128_S50000x128_1_0_0_1_n_n = DotDims.plain 50000 128 128 := rfl
theorem dot64_eq : Cert.ReferenceIdeal.dot_S50000x128_S128x64_S50000x64_1_0_0_1_n_n = DotDims.plain 50000 128 64 := rfl

/-! ## The two layers -/

variable (m : (ℓ : Loc Cert.KernelIdeal.nD Cert.KernelIdeal.τ Cert.KernelIdeal.sig) → Buf (Elt Ideal) ℓ)

open Cert.KernelIdeal.Hand in
/-- The first layer is the same array on both sides. -/
theorem hidden_eq (c : Dev Cert.KernelIdeal.nD) :
    Cert.ReferenceIdeal.Hand.hidden (argX m c) (argE m c) (argW1 m c) (argL1 m c) (argB1 m c) = layer1 m c := by
  funext i
  rw [Cert.ReferenceIdeal.Hand.hidden_apply, mean128_eq, srcWords_eq, dstWords_eq, inCounts_eq, dot128_eq]
  unfold layer1 mean1 own1 nbr1 biasRow128
  refine congrArg (fun z => max z (Ideal.ofBits .f32 0x00000000#32)) ?_
  exact bias_join (M := 50000) (N := 128) _ _ _ _ _ _ i

open Cert.KernelIdeal.Hand in
/-- THE RESULTS AGREE: the reference's two layers of the kernel's arguments are the kernel's result. -/
theorem out_eq (c : Dev Cert.KernelIdeal.nD) :
    Cert.ReferenceIdeal.Hand.refOut (argX m c) (argE m c) (argW1 m c) (argL1 m c) (argB1 m c) (argW2 m c) (argL2 m c) (argB2 m c)
      = kernelOut m c := by
  funext i
  rw [Cert.ReferenceIdeal.Hand.refOut_apply, hidden_eq, mean64_eq, srcWords_eq, dstWords_eq, inCounts_eq, dot64_eq]
  unfold kernelOut mean2 own2 nbr2 biasRow64
  exact bias_join (M := 50000) (N := 64) _ _ _ _ _ _ i

end Cert.Join

end
-- ==== Proof.lean ====
/-
  The claim: the kernel's program and the reference compute the same two graph-convolution layers.

  The kernel's program runs four calls among stretches of host operations; each call's result array is read off its
  tiles (FirstCall, MidCall, ThirdCall, LastCall), the stretches off their operations (HostStretches), and the buffers
  are followed from the launch to the return (Boundaries), where the result array holds
  mean (y W2) + (y L2 + b2), y = max (mean (x W1) + (x L1 + b1), 0). The reference's run ends at
  (mean (y W2) + y L2) + b2 with y = max ((mean (x W1) + x L1) + b1, 0) (RefTerm). Addition of extended reals is
  associative and every other operation is shared, so the two results are equal entry by entry (Join); no finiteness of
  the inputs is used. The three programs run and leave their arguments unchanged; the idealization rewrote nothing.
-/
import proofs.«129689_j46712064311554_1_alg».proof.Defs
import proofs.«129689_j46712064311554_1_alg».proof.Proof.Gen.Kernel
import proofs.«129689_j46712064311554_1_alg».proof.Proof.Gen.Kernel.Frame
import proofs.«129689_j46712064311554_1_alg».proof.Proof.Gen.KernelIdeal
import proofs.«129689_j46712064311554_1_alg».proof.Proof.Gen.KernelIdeal.Frame
import proofs.«129689_j46712064311554_1_alg».proof.Proof.Gen.ReferenceIdeal
import proofs.«129689_j46712064311554_1_alg».proof.Proof.Gen.ReferenceIdeal.Run
import proofs.«129689_j46712064311554_1_alg».proof.Proof.Gen.Pre_finite_inputs
import proofs.«129689_j46712064311554_1_alg».proof.Proof.RunResult
import proofs.«129689_j46712064311554_1_alg».proof.Proof.Boundaries
import proofs.«129689_j46712064311554_1_alg».proof.Proof.RefTerm
import proofs.«129689_j46712064311554_1_alg».proof.Proof.Join
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_k : Cert.frame_Kernel := fun m ρ _ => Cert.Kernel.Gen.frame m ρ

/-- The kernel's program read over the extended reals runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the two graph-convolution layers of the arguments in their result arrays. -/
theorem algebraic : Cert.algebraic_KernelIdeal_ReferenceIdeal := by
  intro m ρ m' ρ' _ hagree
  refine ⟨fun c => Cert.KernelIdeal.Hand.kernelOut m c, ?_, ?_⟩
  · exact (θ_run Cert.KernelIdeal.defs _ _).mono
      (fun r h c => ⟨(h c).1.trans (Cert.KernelIdeal.Hand.at8_out m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    show Cert.ReferenceIdeal.Value.res_main_v54 m' c = Cert.KernelIdeal.Hand.kernelOut m c
    rw [Cert.ReferenceIdeal.Hand.res_eq, e0, e1, e2, e3, e4, e5, e6, e7]
    exact Cert.Join.out_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
